-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x512 : Shape := ⟨3, ![2, 2048, 512]⟩
abbrev S64x512 : Shape := ⟨2, ![64, 512]⟩
abbrev S64 : Shape := ⟨1, ![64]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S2x2048x512 .f32) (main_arg1 : FVec F S64x512 .f32) (main_arg2 : FVec F S64 .f32) (main_arg3 : FVec F S64 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S2x2048x512 : Shape := ⟨3, ![2, 2048, 512]⟩
abbrev S64x512 : Shape := ⟨2, ![64, 512]⟩
abbrev S64 : Shape := ⟨1, ![64]⟩
abbrev S4096x512 : Shape := ⟨2, ![4096, 512]⟩
abbrev S_ : Shape := ⟨0, ![]⟩
abbrev S64x1 : Shape := ⟨2, ![64, 1]⟩
abbrev S1x64 : Shape := ⟨2, ![1, 64]⟩
abbrev S4096x64 : Shape := ⟨2, ![4096, 64]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S2x2048x64 : Shape := ⟨3, ![2, 2048, 64]⟩

abbrev nBuf : Space → Nat
  | .hbm => 14
  | .vmem => 8
  | .smem => 0
  | _ => 0

abbrev bufTy : (tb : Table) → Fin (tcTables nBuf tb) → BufTy
  | .hbm, ⟨0, _⟩ => ⟨S2x2048x512, .f32⟩
  | .hbm, ⟨1, _⟩ => ⟨S64x512, .f32⟩
  | .hbm, ⟨2, _⟩ => ⟨S64, .f32⟩
  | .hbm, ⟨3, _⟩ => ⟨S64, .f32⟩
  | .hbm, ⟨4, _⟩ => ⟨S4096x512, .f32⟩
  | .hbm, ⟨5, _⟩ => ⟨S64x512, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4096x64, .f32⟩
  | .hbm, ⟨13, _⟩ => ⟨S2x2048x64, .f32⟩
  | .local _ .vmem, ⟨0, _⟩ => ⟨S1024x512, .f32⟩
  | .local _ .vmem, ⟨1, _⟩ => ⟨S1024x512, .f32⟩
  | .local _ .vmem, ⟨2, _⟩ => ⟨S64x512, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x2048x512_S4096x512 : S2x2048x512.ShapeCasts S4096x512
  reducesTo_S64x512_S64_d1 : S64x512.ReducesTo [1] S64
  h_S_ : 0 < S_.numel
  bcast_S64_S64x1_0 : S64.BroadcastsInDim S64x1 (![0] : Fin 1 → Fin S64x1.rank)
  shapeCasts_S64x1_S1x64 : S64x1.ShapeCasts S1x64
  shapeCasts_S64_S1x64 : S64.ShapeCasts S1x64
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S4096x64_S2x2048x64 : S4096x64.ShapeCasts S2x2048x64
  dot_S1024x512_S64x512_S1024x64_1_1_0_0_n_n_wf : DotDims.WF S1024x512 S64x512 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S4096x64.size a
  hwx0_5 : ∀ i : grid0.Coords, EltTy.bits .f32 = 32 ∨ (Rect.block (s := S4096x64) S1024x64.size (cc0_transform_5 i) (hinb0_5 i)).WholeWords (EltTy.packing .f32)

variable [Facts₀]

def dot_S1024x512_S64x512_S1024x64_1_1_0_0_n_n : DotDims S1024x512 S64x512 S1024x64 where
  lhsContracting := [1]
  rhsContracting := [1]
  lhsNonContracting := [0]
  rhsNonContracting := [0]
  lhsBatch := []
  rhsBatch := []
  wf := dot_S1024x512_S64x512_S1024x64_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x2048x512 : Shape := ⟨3, ![2, 2048, 512]⟩
abbrev S64x512 : Shape := ⟨2, ![64, 512]⟩
abbrev S64 : Shape := ⟨1, ![64]⟩
abbrev S2x2048x1x512 : Shape := ⟨4, ![2, 2048, 1, 512]⟩
abbrev S1x1x64x512 : Shape := ⟨4, ![1, 1, 64, 512]⟩
abbrev S2x2048x64x512 : Shape := ⟨4, ![2, 2048, 64, 512]⟩
abbrev S_ : Shape := ⟨0, ![]⟩
abbrev S2x2048x64 : Shape := ⟨3, ![2, 2048, 64]⟩
abbrev S1x1x64 : Shape := ⟨3, ![1, 1, 64]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S64x512, .f32⟩
  | .hbm, ⟨2, _⟩ => ⟨S64, .f32⟩
  | .hbm, ⟨3, _⟩ => ⟨S64, .f32⟩
  | .hbm, ⟨4, _⟩ => ⟨S2x2048x1x512, .f32⟩
  | .hbm, ⟨5, _⟩ => ⟨S1x1x64x512, .f32⟩
  | .hbm, ⟨6, _⟩ => ⟨S2x2048x64x512, .f32⟩
  | .hbm, ⟨7, _⟩ => ⟨S2x2048x64x512, .f32⟩
  | .hbm, ⟨8, _⟩ => ⟨S2x2048x64x512, .f32⟩
  | .hbm, ⟨9, _⟩ => ⟨S2x2048x64x512, .f32⟩
  | .hbm, ⟨10, _⟩ => ⟨S_, .f32⟩
  | .hbm, ⟨11, _⟩ => ⟨S2x2048x64, .f32⟩
  | .hbm, ⟨12, _⟩ => ⟨S2x2048x64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S1x1x64, .f32⟩
  | .hbm, ⟨19, _⟩ => ⟨S2x2048x64, .f32⟩
  | .hbm, ⟨20, _⟩ => ⟨S2x2048x64, .f32⟩
  | .hbm, ⟨21, _⟩ => ⟨S2x2048x64, .f32⟩
  | .hbm, ⟨22, _⟩ => ⟨S_, .f32⟩
  | .hbm, ⟨23, _⟩ => ⟨S2x2048x64, .f32⟩
  | .hbm, ⟨24, _⟩ => ⟨S2x2048x64, .f32⟩
  | .hbm, ⟨25, _⟩ => ⟨S2x2048x64, .f32⟩
  | .hbm, ⟨26, _⟩ => ⟨S64, .f32⟩
  | .hbm, ⟨27, _⟩ => ⟨S1x1x64, .f32⟩
  | .hbm, ⟨28, _⟩ => ⟨S2x2048x64, .f32⟩
  | .hbm, ⟨29, _⟩ => ⟨S2x2048x64, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S2x2048x512_S2x2048x1x512_0_1_3 : S2x2048x512.BroadcastsInDim S2x2048x1x512 (![0, 1, 3] : Fin 3 → Fin S2x2048x1x512.rank)
  bcast_S64x512_S1x1x64x512_2_3 : S64x512.BroadcastsInDim S1x1x64x512 (![2, 3] : Fin 2 → Fin S1x1x64x512.rank)
  bcast_S2x2048x1x512_S2x2048x64x512_0_1_2_3 : S2x2048x1x512.BroadcastsInDim S2x2048x64x512 (![0, 1, 2, 3] : Fin 4 → Fin S2x2048x64x512.rank)
  bcast_S1x1x64x512_S2x2048x64x512_0_1_2_3 : S1x1x64x512.BroadcastsInDim S2x2048x64x512 (![0, 1, 2, 3] : Fin 4 → Fin S2x2048x64x512.rank)
  reducesTo_S2x2048x64x512_S2x2048x64_d3 : S2x2048x64x512.ReducesTo [3] S2x2048x64
  h_S_ : 0 < S_.numel
  bcast_S_S64 : S_.BroadcastsInDim S64 (![] : Fin 0 → Fin S64.rank)
  bcast_S64_S1x1x64_2 : S64.BroadcastsInDim S1x1x64 (![2] : Fin 1 → Fin S1x1x64.rank)
  bcast_S1x1x64_S2x2048x64_0_1_2 : S1x1x64.BroadcastsInDim S2x2048x64 (![0, 1, 2] : Fin 3 → Fin S2x2048x64.rank)
  bcast_S_S2x2048x64 : S_.BroadcastsInDim S2x2048x64 (![] : Fin 0 → Fin S2x2048x64.rank)

variable [Facts₀]

class Facts : Prop extends Facts₀ where

variable [Facts]
-- ==== Proof.Spec.lean ====
/-
  The two programs' results as functions of the argument arrays, index by index, on the extended reals.

  Data: tokens `x : [2, 2048, 512]`, splat centres `p : [64, 512]`, scales `s : [64]`, weights `w : [64]`.
  The result at (batch `b`, position `q`, splat `k`) is an influence

      exp (-1/2 · ‖x[b,q,·] - p[k,·]‖² / c²) · |w[k]|,    c = max |s[k]| ε,

  written in two ways. The NORM form takes the square root of `∑ (x - p)²`, divides by `c` and squares. The
  THREE-SUMS form expands the square as `∑ x² - 2 ∑ x·p + ∑ p²` and divides by `c · c`. The second is stated for a
  matrix of rows (`rowInfluence`), whatever the number of rows, so that it reads both one block of rows and all
  4096 of them. The literals stay as their words: `ε` is `0x358637BD`, `-1/2` is `0xBF000000`, `2` is
  `0x40000000`, and the sums start from the zero word.
-/
import Idealize.ShloMosaic.PureOps.Ideal
import Idealize.ShloMosaic.Lib.ValueIdx

noncomputable section

open scoped BigOperators

namespace Cert.Splat

open Idealize.ShloMosaic Idealize.ShloMosaic.ValueIdx

abbrev STok : Shape := ⟨3, ![2, 2048, 512]⟩
abbrev SCen : Shape := ⟨2, ![64, 512]⟩
abbrev SSpl : Shape := ⟨1, ![64]⟩
abbrev SRes : Shape := ⟨3, ![2, 2048, 64]⟩

/-- The floor under the scales, the factor of the exponent, the factor of the cross term, the start of a sum. -/
abbrev eps : EReal := Ideal.ofBits .f32 0x358637BD#32
abbrev negHalf : EReal := Ideal.ofBits .f32 0xBF000000#32
abbrev two : EReal := Ideal.ofBits .f32 0x40000000#32
abbrev zero : EReal := Ideal.ofBits .f32 0x00000000#32

/-- THE THREE-SUMS FORM over a matrix of rows: row `r` of `X` against centre `k`, the centre's squared norm `pn k`
    given, the scale `sc k` and the weight `wt k` given. -/
def rowInfluence {M : ℕ} (X : (⟨2, ![M, 512]⟩ : Shape).Idx → EReal) (P : SCen.Idx → EReal) (pn sc wt : Fin 64 → EReal)
    (r : Fin M) (k : Fin 64) : EReal :=
  Ideal.exp (Ideal.div
      (negHalf * (((∑ d : Fin 512, X (ix2 r d) * X (ix2 r d)) - two * (∑ d : Fin 512, X (ix2 r d) * P (ix2 k d))) + pn k))
      (max (max (sc k) (-(sc k))) eps * max (max (sc k) (-(sc k))) eps))
    * max (wt k) (-(wt k))

/-- It reads `X` on row `r` only. -/
theorem rowInfluence_congr {M M' : ℕ} (X : (⟨2, ![M, 512]⟩ : Shape).Idx → EReal) (X' : (⟨2, ![M', 512]⟩ : Shape).Idx → EReal)
    (P : SCen.Idx → EReal) (pn sc wt : Fin 64 → EReal) (r : Fin M) (r' : Fin M') (k : Fin 64)
    (h : ∀ d : Fin 512, X (ix2 r d) = X' (ix2 r' d)) :
    rowInfluence X P pn sc wt r k = rowInfluence X' P pn sc wt r' k := by
  unfold rowInfluence
  simp only [h]

/-- THE THREE-SUMS FORM at (batch, position, splat), over the argument arrays. -/
def sumsAt (x : STok.Idx → EReal) (p : SCen.Idx → EReal) (s w : SSpl.Idx → EReal) (b : Fin 2) (q : Fin 2048) (k : Fin 64) : EReal :=
  Ideal.exp (Ideal.div
      (negHalf * (((∑ d : Fin 512, x (ix3 b q d) * x (ix3 b q d)) - two * (∑ d : Fin 512, x (ix3 b q d) * p (ix2 k d)))
        + (zero + ∑ d : Fin 512, p (ix2 k d) * p (ix2 k d))))
      (max (max (s (ix1 k)) (-(s (ix1 k)))) eps * max (max (s (ix1 k)) (-(s (ix1 k)))) eps))
    * max (w (ix1 k)) (-(w (ix1 k)))

/-- THE NORM FORM at (batch, position, splat), over the argument arrays. -/
def normAt (x : STok.Idx → EReal) (p : SCen.Idx → EReal) (s w : SSpl.Idx → EReal) (b : Fin 2) (q : Fin 2048) (k : Fin 64) : EReal :=
  Ideal.exp (negHalf
      * (Ideal.div (Ideal.sqrt (zero + ∑ d : Fin 512, (x (ix3 b q d) - p (ix2 k d)) * (x (ix3 b q d) - p (ix2 k d))))
            (max eps (max (s (ix1 k)) (-(s (ix1 k)))))
        * Ideal.div (Ideal.sqrt (zero + ∑ d : Fin 512, (x (ix3 b q d) - p (ix2 k d)) * (x (ix3 b q d) - p (ix2 k d))))
            (max eps (max (s (ix1 k)) (-(s (ix1 k)))))))
    * max (w (ix1 k)) (-(w (ix1 k)))

/-- The result array in the norm form: what both programs end at. -/
def influences (x : STok.Idx → EReal) (p : SCen.Idx → EReal) (s w : SSpl.Idx → EReal) : SRes.Idx → EReal :=
  fun i => normAt x p s w (i 0) (i 1) (i 2)

/-- The three-sums form is the row form of the tokens laid out as 4096 rows: row `b · 2048 + q` is token `(b, q)`. -/
theorem sumsAt_eq_rowInfluence (x : STok.Idx → EReal) (p : SCen.Idx → EReal) (s w : SSpl.Idx → EReal)
    (X : (⟨2, ![4096, 512]⟩ : Shape).Idx → EReal) (b : Fin 2) (q : Fin 2048) (k : Fin 64) (r : Fin 4096)
    (hX : ∀ d : Fin 512, X (ix2 r d) = x (ix3 b q d)) :
    rowInfluence X p (fun k => zero + ∑ d : Fin 512, p (ix2 k d) * p (ix2 k d)) (fun k => s (ix1 k)) (fun k => w (ix1 k)) r k
      = sumsAt x p s w b q k := by
  unfold rowInfluence sumsAt
  simp only [hX]

end Cert.Splat

end
-- ==== Proof.LibMatmulRowsAt.lean ====
/-
  A product of rows against rows, read at an entry, at the ideal values.

  For dimension numbers that contract the SECOND axis of both operands, with no batch axis —
  `[M, K] · [N, K] → [M, N]`, the right operand used transposed — the product into a zero accumulator has, at row
  `o` and column `t`, the entry `∑ c, A[o, c] · B[t, c]`: the inner product of row `o` of `A` with row `t` of `B`.
  The contraction's index set has one axis; the sum over it is re-indexed by that axis's coordinate.
-/
import Idealize.ShloMosaic.PureOps.Ideal.Laws
import Idealize.ShloMosaic.Lib.ValueIdx

noncomputable section

open scoped BigOperators

namespace Cert.LibMatmulRowsAt

open Idealize.ShloMosaic Idealize.ShloMosaic.ValueIdx

variable {M K N : ℕ} (D : DotDims ⟨2, ![M, K]⟩ ⟨2, ![N, K]⟩ ⟨2, ![M, N]⟩)

/-- An index read at two spellings of one axis number gives one coordinate. -/
theorem coord_of_eq {s : Shape} (i : s.Idx) (p q : ℕ) (hp : p < s.rank) (hq : q < s.rank) (h : p = q) :
    (i ⟨p, hp⟩).val = (i ⟨q, hq⟩).val := by subst h; rfl

/-- The left operand's kept axis is the result's first axis. -/
theorem lhs_kept (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_of_eq i _ _ _ _ (by simp [hb, hn])

/-- The right operand's kept axis — its FIRST — is the result's second axis. -/
theorem rhs_kept (hb : D.rhsBatch = []) (hlb : D.lhsBatch = []) (hln : D.lhsNonContracting = [0]) (hn : D.rhsNonContracting = [0])
    (i : (⟨2, ![M, N]⟩ : Shape).Idx) (q : D.contr.Idx) :
    (D.rhsIdx i q 0).val = (i 1).val := by
  unfold DotDims.rhsIdx
  rw [dif_neg (by rw [hb]; exact List.not_mem_nil), dif_pos (by rw [hn]; exact List.mem_singleton.mpr rfl)]
  simp only [Fin.val_cast]
  exact coord_of_eq i _ _ _ _ (by simp [hn, hlb, hln])

/-- One axis is contracted, -/
theorem contr_rank (hc : D.lhsContracting = [1]) : D.contr.rank = 1 := by rw [D.rank_contr, hc]; rfl

/-- of extent `K`. -/
theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY: row `o` of the left operand against row `t` of the right. -/
theorem matmul_zero_at {φ₁ φ₂ : FTy} (hlc : D.lhsContracting = [1]) (hrc : D.rhsContracting = [1]) (hlb : D.lhsBatch = [])
    (hrb : D.rhsBatch = []) (hln : D.lhsNonContracting = [0]) (hrn : D.rhsNonContracting = [0])
    (prec : Option ContractPrecision) (A : FVec Ideal ⟨2, ![M, K]⟩ φ₁) (B : FVec Ideal ⟨2, ![N, K]⟩ φ₂) (o : Fin M) (t : Fin N) :
    FloatOps.matmul D prec A B (constant ⟨2, ![M, N]⟩ .f32 0x00000000#32) (ix2 o t) = ∑ c : Fin K, A (ix2 o c) * B (ix2 t c) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_kept D hlb hln _ _
      | ⟨1, _⟩ => exact (D.lhsIdx_val_of_single hlc _ _).trans hk)
  have er : D.rhsIdx (ix2 o t) ((contrEquiv1 D K (contr_rank D hlc) (contr_size D hlc)).symm k) = ix2 t k :=
    funext fun a => Fin.ext (by
      match a with
      | ⟨0, _⟩ => exact rhs_kept D hrb hlb hln hrn _ _
      | ⟨1, _⟩ => exact (D.rhsIdx_val_of_single hrc _ _).trans hk)
  rw [el, er]

end Cert.LibMatmulRowsAt

end
-- ==== Proof.KernelBlock.lean ====
/-
  What the kernel body stores, read at one entry of a block.

  The body loads a block of 1024 token rows `x0`, the 64 centres `x1`, the centres' squared norms `x2` (one row of
  64), the scales `x3` and the weights `x4` (one row of 64 each). At row `r` and splat `k` it stores the
  three-sums form of Spec.lean: the row's own squared norm (a lane sum), minus twice the inner product of the row with
  centre `k` (the matrix product of rows against rows; the change of float format is the identity), plus the
  centre's squared norm; times `-1/2`, over the squared floored scale, exponentiated, times `|weight|`.
-/
import proofs.«107572_j38431367364862_1_alg».proof.Proof.Gen.KernelIdeal.Skeleton
import proofs.«107572_j38431367364862_1_alg».proof.Proof.Spec
import proofs.«107572_j38431367364862_1_alg».proof.Proof.LibMatmulRowsAt
import Idealize.ShloMosaic.Lib.Pipeline.Value
import Idealize.ShloMosaic.Lib.ValueLayout
import Idealize.ShloMosaic.PureOps.Ideal.Laws

noncomputable section

open scoped BigOperators

namespace Cert.Splat

open Idealize.ShloMosaic Idealize.ShloMosaic.ValueIdx

variable {α : Type}

/-! ## Three layout readings the body needs -/

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` vector from the zero word reads, at row `r`, the sum over the row. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ d : Fin b, v (ix2 r d) :=
  (Ideal.multiReduction_add_single v 0x00000000#32 h hφ hacc (ix1 r)).trans
    (Finset.sum_congr rfl fun d _ => congrArg v (funext fun ax => Fin.ext (by
      match ax with
      | ⟨0, _⟩ => rfl
      | ⟨1, _⟩ => rfl)))

/-! ## The payload at an entry -/

open Cert.KernelIdeal Cert.KernelIdeal.Gen

theorem absf_at {s : Shape} (v : FVec Ideal s .f32) (i : s.Idx) : absf v i = max (v i) (-(v i)) := rfl
theorem exp_at {s : Shape} (v : FVec Ideal s .f32) (i : s.Idx) : exp v i = Ideal.exp (v i) := rfl

/-- THE STORED BLOCK AT `(r, k)` is the three-sums form over the loaded block of rows. -/
theorem payload_at (x0 : Vec Ideal S1024x512 .f32) (x1 : Vec Ideal S64x512 .f32) (x2 x3 x4 : Vec Ideal S1x64 .f32)
    (r : Fin 1024) (k : Fin 64) :
    k0_pay1 (F := Ideal) x0 x1 x2 x3 x4 (ix2 r k)
      = rowInfluence x0 x1 (fun k => x2 (ix2 (0 : Fin 1) k)) (fun k => x3 (ix2 (0 : Fin 1) k)) (fun k => x4 (ix2 (0 : Fin 1) k)) r k := by
  unfold k0_pay1 rowInfluence
  simp only [mulf_apply, addf_apply, subf_apply, divf_apply, maximumf_apply, broadcast_apply, absf_at, exp_at,
    shapeCast_self, broadcastTo_1b_ab_apply, broadcastTo_a1_ab_apply, shapeCast_a_a1_apply, laneSum_apply]
  have hrow := laneSum_apply (mulf x0 x0) reduces_S1024x512_S1024 (.inl rfl) rfl r
  simp only [mulf_apply] at hrow
  have hdot := Cert.LibMatmulRowsAt.matmul_zero_at dot_S1024x512_S64x512_S1024x64_1_1_0_0_n_n rfl rfl rfl rfl rfl rfl none
      (truncf FTy.bf16 x0 bitsLt_bf16_f32) (truncf FTy.bf16 x1 bitsLt_bf16_f32) r k
  simp only [truncf_apply] at hdot
  rw [hrow]
  simp only [matmul]
  rw [hdot]
  rfl

end Cert.Splat

end
-- ==== Proof.KernelArray.lean ====
/-
  The kernel's result array after the run: all 4096 rows of the three-sums form.

  The grid has four points; point `t` reads rows `1024·t … 1024·t + 1023` of the token matrix, the whole centre
  matrix and the three one-row tables, and writes back rows `1024·t …` of the result. What it writes back is that
  block of ONE function of the arrays as the region finds them (`rowsResult`), and the four blocks tile the result,
  so the result array ends as that function.
-/
import proofs.«107572_j38431367364862_1_alg».proof.Proof.Gen.KernelIdeal.Frame
import proofs.«107572_j38431367364862_1_alg».proof.Proof.KernelBlock

set_option maxRecDepth 16384

noncomputable section

open scoped BigOperators

namespace Cert.Splat

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The arrays the region finds, at their literal types -/

abbrev tokRows (c : Dev nD) : Vec Ideal S4096x512 .f32 := V m c main_v0
abbrev centres (c : Dev nD) : Vec Ideal S64x512 .f32 := V m c main_arg1
abbrev centreNorms (c : Dev nD) : Vec Ideal S1x64 .f32 := V m c main_v4
abbrev scaleRow (c : Dev nD) : Vec Ideal S1x64 .f32 := V m c main_v5
abbrev weightRow (c : Dev nD) : Vec Ideal S1x64 .f32 := V m c main_v6

/-- The result as ONE function of those arrays: entry `(R, k)` is the three-sums form of row `R` against centre `k`. -/
def rowsResult (c : Dev nD) : Vec Ideal S4096x64 .f32 := fun i =>
  rowInfluence (tokRows m c) (centres m c) (fun k => centreNorms m c (ix2 (0 : Fin 1) k)) (fun k => scaleRow m c (ix2 (0 : Fin 1) k))
    (fun k => weightRow m c (ix2 (0 : Fin 1) k)) (i 0) (i 1)

/-- The three-sums form depends on its data only through row `r`, centre `k` and the three table entries at `k`. -/
theorem rowInfluence_congr_all {M M' : ℕ} (X : (⟨2, ![M, 512]⟩ : Shape).Idx → EReal) (X' : (⟨2, ![M', 512]⟩ : Shape).Idx → EReal)
    (P P' : SCen.Idx → EReal) (pn pn' sc sc' wt wt' : Fin 64 → EReal) (r : Fin M) (r' : Fin M') (k : Fin 64)
    (hX : ∀ d : Fin 512, X (ix2 r d) = X' (ix2 r' d)) (hP : ∀ d : Fin 512, P (ix2 k d) = P' (ix2 k d))
    (hpn : pn k = pn' k) (hsc : sc k = sc' k) (hwt : wt k = wt' k) :
    rowInfluence X P pn sc wt r k = rowInfluence X' P' pn' sc' wt' r' k := by
  unfold rowInfluence
  simp only [hX, hP, hpn, hsc, hwt]

/-! ## The index maps, decided over the four points -/

theorem zeroOffsets : (![0, 0] : Fin 2 → Nat) = fun _ => 0 := funext fun a => by fin_cases a <;> rfl

/-- Point `t` reads and writes row block `t`; the centre matrix and the three tables are read whole. -/
theorem blockIndices : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of point `t`'s block is row `1024·t + r` of the matrix. -/
def rowOf (t : Fin cfg0.N) (r : Fin 1024) : Fin 4096 :=
  ⟨t.val * 1024 + r.val, by have h : t.val < 4 := lt_of_lt_of_eq t.isLt N_0; omega⟩

/-! ## Each input block read where the output's block says -/

theorem tokBlock_at (c : Dev nD) (t : Fin cfg0.N) (r : Fin 1024) (d : Fin 512) :
    iblk m c 0 t (ix2 r d) = tokRows m c (ix2 (rowOf t r) d) := by
  obtain ⟨e0, e1, -⟩ := blockIndices t
  show V m c main_v0 (((cfg0.win 0).blk t).view.emb (ix2 r d)) = V m c main_v0 (ix2 (rowOf t r) d)
  refine congrArg (V m c main_v0) (funext fun a => Fin.ext ?_)
  match a with
  | ⟨0, _⟩ => show win0_0.index t (0 : Fin 2) * 1024 + 1 * r.val = t.val * 1024 + r.val; omega
  | ⟨1, _⟩ => show win0_0.index t (1 : Fin 2) * 512 + 1 * d.val = d.val; omega

theorem centreBlock_at (c : Dev nD) (t : Fin cfg0.N) (k : Fin 64) (d : Fin 512) :
    iblk m c 1 t (ix2 k d) = centres m c (ix2 k d) := by
  obtain ⟨-, -, -, -, e0, e1, -⟩ := blockIndices t
  show V m c main_arg1 (((cfg0.win 1).blk t).view.emb (ix2 k d)) = V m c main_arg1 (ix2 k d)
  refine congrArg (V m c main_arg1) (funext fun a => Fin.ext ?_)
  match a with
  | ⟨0, _⟩ => show win0_1.index t (0 : Fin 2) * 64 + 1 * k.val = k.val; omega
  | ⟨1, _⟩ => show win0_1.index t (1 : Fin 2) * 512 + 1 * d.val = d.val; omega

theorem normBlock_at (c : Dev nD) (t : Fin cfg0.N) (k : Fin 64) :
    iblk m c 2 t (ix2 (0 : Fin 1) k) = centreNorms m c (ix2 (0 : Fin 1) k) := by
  obtain ⟨-, -, -, -, -, -, e0, e1, -⟩ := blockIndices t
  show V m c main_v4 (((cfg0.win 2).blk t).view.emb (ix2 (0 : Fin 1) k)) = V m c main_v4 (ix2 (0 : Fin 1) k)
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

theorem scaleBlock_at (c : Dev nD) (t : Fin cfg0.N) (k : Fin 64) :
    iblk m c 3 t (ix2 (0 : Fin 1) k) = scaleRow m c (ix2 (0 : Fin 1) k) := by
  obtain ⟨-, -, -, -, -, -, -, -, e0, e1, -⟩ := blockIndices t
  show V m c main_v5 (((cfg0.win 3).blk t).view.emb (ix2 (0 : Fin 1) k)) = V m c main_v5 (ix2 (0 : Fin 1) k)
  refine congrArg (V m c main_v5) (funext fun a => Fin.ext ?_)
  match a with
  | ⟨0, _⟩ => show win0_3.index t (0 : Fin 2) * 1 + 1 * 0 = 0; omega
  | ⟨1, _⟩ => show win0_3.index t (1 : Fin 2) * 64 + 1 * k.val = k.val; omega

theorem weightBlock_at (c : Dev nD) (t : Fin cfg0.N) (k : Fin 64) :
    iblk m c 4 t (ix2 (0 : Fin 1) k) = weightRow m c (ix2 (0 : Fin 1) k) := by
  obtain ⟨-, -, -, -, -, -, -, -, -, -, e0, e1⟩ := blockIndices t
  show V m c main_v6 (((cfg0.win 4).blk t).view.emb (ix2 (0 : Fin 1) k)) = V m c main_v6 (ix2 (0 : Fin 1) k)
  refine congrArg (V m c main_v6) (funext fun a => Fin.ext ?_)
  match a with
  | ⟨0, _⟩ => show win0_4.index t (0 : Fin 2) * 1 + 1 * 0 = 0; omega
  | ⟨1, _⟩ => show win0_4.index t (1 : Fin 2) * 64 + 1 * k.val = k.val; omega

/-- Entry `(r, k)` of the output's block at point `t` is entry `(1024·t + r, k)` of the result array. -/
theorem outBlock_emb (t : Fin cfg0.N) (r : Fin 1024) (k : Fin 64) :
    ((cfg0.win 5).blk t).view.emb (ix2 r k) = ix2 (rowOf t r) k := by
  obtain ⟨-, -, e0, e1, -⟩ := blockIndices t
  funext a
  apply Fin.ext
  match a with
  | ⟨0, _⟩ => show win0_5.index t (0 : Fin 2) * 1024 + 1 * r.val = t.val * 1024 + r.val; omega
  | ⟨1, _⟩ => show win0_5.index t (1 : Fin 2) * 64 + 1 * k.val = k.val; omega

/-! ## What a point writes back, the cover, the array -/

/-- WHAT POINT `t` WRITES BACK is block `t` of `rowsResult`. -/
theorem writeBack_eq (c : Dev nD) (t : Fin cfg0.N) :
    (dats m 0 c).flushed 5 t = ((cfg0.win 5).blk t).view.read (Elt Ideal) (rowsResult m c) := by
  show (cfg0.win 5).cut (grid0.coords t) ((dats m 0 c).after 5 t) = _
  rw [after0_5]
  unfold out0_5
  rw [View.canon_unit_zero zeroOffsets]
  simp only [View.ld_unit_zero (S := S1024x512) zeroOffsets, View.ld_unit_zero (S := S64x512) zeroOffsets, View.ld_unit_zero (S := S1x64) zeroOffsets]
  funext j
  obtain ⟨r, k, rfl⟩ : ∃ (r : Fin 1024) (k : Fin 64), j = ix2 r k := ⟨j 0, j 1, eq_ix2 j⟩
  show k0_pay1 (F := Ideal) (iblk m c 0 t) (iblk m c 1 t) (iblk m c 2 t) (iblk m c 3 t) (iblk m c 4 t) (ix2 r k)
    = rowsResult m c (((cfg0.win 5).blk t).view.emb (ix2 r k))
  rw [outBlock_emb t r k]
  refine (payload_at (iblk m c 0 t) (iblk m c 1 t) (iblk m c 2 t) (iblk m c 3 t) (iblk m c 4 t) r k).trans ?_
  exact rowInfluence_congr_all _ _ _ _ _ _ _ _ _ _ r (rowOf t r) k (fun d => tokBlock_at m c t r d) (fun d => centreBlock_at m c t k d)
    (normBlock_at m c t k) (scaleBlock_at m c t k) (weightBlock_at m c t k)

/-- An index of the result array is in point `t`'s block iff its row lies in that block's range. -/
theorem mem_block_iff (t : Fin cfg0.N) (i : S4096x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v7).slice (win0_5.rect t)).set ↔ _
  rw [View.set_slice_whole, Rect.mem_set_unit]
  exact Iff.rfl

/-- The four blocks tile the result: row `R` is in the block of point `R / 1024`. -/
theorem blocks_tile (i : S4096x64.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  let t : Fin cfg0.N := ⟨(i 0).val / 1024, by show (i 0).val / 1024 < grid0.N; rw [N_0]; omega⟩
  have ht : t.val = (i 0).val / 1024 := rfl
  obtain ⟨-, -, e0, e1, -⟩ := blockIndices t
  refine ⟨t, flush0_5 t, ?_⟩
  rw [mem_block_iff]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 64 ≤ (i 1).val ∧ (i 1).val < win0_5.index t (1 : Fin 2) * 64 + 64; omega

/-- THE RESULT ARRAY after the run. -/
theorem resultRows_final (c : Dev nD) : (dats m 0 c).arrAt 5 cfg0.N = rowsResult m c :=
  (dats m 0 c).arrAt_eq_of_cover 5 (rowsResult m c) (fun t _ => writeBack_eq m c t) blocks_tile

end Cert.Splat

end
-- ==== Proof.KernelHost.lean ====
/-
  The kernel program's result as a function of its four arguments.

  Before the region the program lays the tokens out as 4096 rows (row `2048·b + q` is token `(b, q)`), computes each
  centre's squared norm (a sum over the model axis from the zero word) and lays it, the scales and the weights out as
  one row of 64 each. After the region it folds the 4096 result rows back to `[2, 2048, 64]`. Reading those layout
  steps at an index turns the region's `rowsResult` into the three-sums form `sumsAt` at `(b, q, k)`.
-/
import proofs.«107572_j38431367364862_1_alg».proof.Proof.KernelArray
import Idealize.ShloMosaic.Lib.StableHlo.Run

set_option maxRecDepth 16384

noncomputable section

open scoped BigOperators

namespace Cert.Splat

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## The argument arrays, at their literal types -/

abbrev argTok (c : Dev nD) : Vec Ideal S2x2048x512 .f32 := m ((c : Thread nD τ).loc main_arg0)
abbrev argCen (c : Dev nD) : Vec Ideal S64x512 .f32 := m ((c : Thread nD τ).loc main_arg1)
abbrev argScale (c : Dev nD) : Vec Ideal S64 .f32 := m ((c : Thread nD τ).loc main_arg2)
abbrev argWeight (c : Dev nD) : Vec Ideal S64 .f32 := m ((c : Thread nD τ).loc main_arg3)

/-! ## The arrays the region finds, from the arguments -/

theorem tokRows_eq (c : Dev nD) :
    tokRows m c = shapeCast S4096x512 (argTok m c) shapeCasts_S2x2048x512_S4096x512 := by
  show StableHlo.after hostOps0 (fun b => m (c, b)) (Proc.devRef .tc main_v0) = _
  after_results
  rfl

theorem centreNorms_eq (c : Dev nD) :
    centreNorms m c = shapeCast S1x64 (broadcastInDim S64x1 ![0] bcast_S64_S64x1_0
        (Host.reduceAdd (mulf (argCen m c) (argCen m c))
          (constant (F := Ideal) S_ .f32 0x00000000#32) reducesTo_S64x512_S64_d1 h_S_)) shapeCasts_S64x1_S1x64 := by
  show StableHlo.after hostOps0 (fun b => m (c, b)) (Proc.devRef .tc main_v4) = _
  after_results
  rfl

theorem scaleRow_eq (c : Dev nD) :
    scaleRow m c = shapeCast S1x64 (argScale m c) shapeCasts_S64_S1x64 := by
  show StableHlo.after hostOps0 (fun b => m (c, b)) (Proc.devRef .tc main_v5) = _
  after_results
  rfl

theorem weightRow_eq (c : Dev nD) :
    weightRow m c = shapeCast S1x64 (argWeight m c) shapeCasts_S64_S1x64 := by
  show StableHlo.after hostOps0 (fun b => m (c, b)) (Proc.devRef .tc main_v6) = _
  after_results
  rfl

/-! ## Those layouts read at an index -/

/-- Token `(b, q)` is row `2048·b + q`. -/
def tokRow (b : Fin 2) (q : Fin 2048) : Fin 4096 := ⟨b.val * 2048 + q.val, by omega⟩

theorem tokRows_at (c : Dev nD) (b : Fin 2) (q : Fin 2048) (d : Fin 512) :
    tokRows m c (ix2 (tokRow b q) d) = argTok m c (ix3 b q d) :=
  (congrFun (tokRows_eq m c) _).trans (shapeCast_apply _ _ _ (ix3 b q d) (by
    rw [Shape.rowMajor_val_three, Shape.rowMajor_val_two]
    rfl))

/-- A one-row table made from a vector reads the vector. -/
theorem scaleRow_at (c : Dev nD) (k : Fin 64) :
    scaleRow m c (ix2 (0 : Fin 1) k) = argScale m c (ix1 k) :=
  (congrFun (scaleRow_eq m c) _).trans (shapeCast_a_1a_apply _ _ (0 : Fin 1) k)

theorem weightRow_at (c : Dev nD) (k : Fin 64) :
    weightRow m c (ix2 (0 : Fin 1) k) = argWeight m c (ix1 k) :=
  (congrFun (weightRow_eq m c) _).trans (shapeCast_a_1a_apply _ _ (0 : Fin 1) k)

/-- The centres' squared norms: the sum over the model axis of the squares, from the zero word. -/
theorem centreNorms_at (c : Dev nD) (k : Fin 64) :
    centreNorms m c (ix2 (0 : Fin 1) k)
      = zero + ∑ d : Fin 512, argCen m c (ix2 k d) * argCen m c (ix2 k d) := by
  refine (congrFun (centreNorms_eq m c) _).trans ?_
  refine (shapeCast_apply _ shapeCasts_S64x1_S1x64 (ix2 (0 : Fin 1) k) (ix2 k (0 : Fin 1)) (by
    rw [Shape.rowMajor_val_two, Shape.rowMajor_val_two]
    show k.val * 1 + 0 = 0 * 64 + k.val
    omega)).trans ?_
  refine (broadcastInDim_apply _ bcast_S64_S64x1_0 _ (ix2 k (0 : Fin 1)) (ix1 k) (fun a => by
    match a with
    | ⟨0, _⟩ => show k.val = if (64 : Nat) = 1 then 0 else k.val; rw [if_neg (by decide)])).trans ?_
  simp only [Host.reduceAdd, Ideal.hostReduceAdd_def]
  rw [Ideal.hostReduceAdd_single reducesTo_S64x512_S64_d1 (by decide)]
  refine congrArg (_ + ·) (Finset.sum_congr rfl fun d _ => ?_)
  show argCen m c _ * argCen m c _ = _
  have e : (Shape.Reduces.lift (by decide : S64x512.Reduces [1] S64) (ix1 k) d : S64x512.Idx) = ix2 k d :=
    funext fun a => Fin.ext (by match a with | ⟨0, _⟩ => rfl | ⟨1, _⟩ => rfl)
  rw [e]
  rfl

/-! ## The result -/

/-- The three-sums form as an array. -/
def sumsResult (x : STok.Idx → EReal) (p : SCen.Idx → EReal) (s w : SSpl.Idx → EReal) : SRes.Idx → EReal :=
  fun i => sumsAt x p s w (i 0) (i 1) (i 2)

/-- What the region leaves in the result rows' array. -/
theorem resultRows_eq (c : Dev nD) :
    Pipeline.withArrays (cfgs 0).spec c (V0 m c) (fun w => (dats m 0 c).arrAt w (cfgs 0).N) (Proc.devRef .tc main_v7)
      = rowsResult m c :=
  (Pipeline.withArrays_arr spec0 launch0.win.arr_inj c _ _ 5).trans (resultRows_final m c)

/-- The one operation after the region folds the rows' array, whatever it holds, back to `[2, 2048, 64]`. -/
theorem tail_of (W : Valuation τ sig (Elt Ideal)) :
    StableHlo.after (hostOps1 (F := Ideal)) W (Proc.devRef .tc main_v8)
      = shapeCast S2x2048x64 (W (Proc.devRef .tc main_v7) : Vec Ideal S4096x64 .f32) shapeCasts_S4096x64_S2x2048x64 := by
  after_results
  rfl

/-- After the region the result rows are folded back to `[2, 2048, 64]`. -/
theorem tail_eq (c : Dev nD) :
    Pipeline.afterTail₀ cfgs (dats m) 0 (V0 m) [hostOps1] c main_v8
      = shapeCast S2x2048x64 (rowsResult m c) shapeCasts_S4096x64_S2x2048x64 := by
  unfold Pipeline.afterTail₀
  exact (tail_of _).trans
    (congrArg (fun X : Vec Ideal S4096x64 .f32 => shapeCast S2x2048x64 X shapeCasts_S4096x64_S2x2048x64) (resultRows_eq m c))

/-- THE KERNEL PROGRAM'S RESULT is the three-sums form of its arguments. -/
theorem kernel_value (c : Dev nD) :
    Pipeline.afterTail₀ cfgs (dats m) 0 (V0 m) [hostOps1] c main_v8
      = sumsResult (argTok m c) (argCen m c) (argScale m c) (argWeight m c) := by
  rw [tail_eq]
  funext i
  obtain ⟨b, q, k, rfl⟩ : ∃ (b : Fin 2) (q : Fin 2048) (k : Fin 64), i = ix3 b q k := ⟨i 0, i 1, i 2, eq_ix3 i⟩
  refine (shapeCast_apply _ shapeCasts_S4096x64_S2x2048x64 (ix3 b q k) (ix2 (tokRow b q) k) (by
    rw [Shape.rowMajor_val_three, Shape.rowMajor_val_two]
    rfl)).trans ?_
  show rowInfluence (tokRows m c) (centres m c) (fun k => centreNorms m c (ix2 (0 : Fin 1) k))
      (fun k => scaleRow m c (ix2 (0 : Fin 1) k)) (fun k => weightRow m c (ix2 (0 : Fin 1) k)) (tokRow b q) k
    = sumsAt (argTok m c) (argCen m c) (argScale m c) (argWeight m c) b q k
  refine (rowInfluence_congr_all _ (tokRows m c) _ (argCen m c) _
      (fun k => zero + ∑ d : Fin 512, argCen m c (ix2 k d) * argCen m c (ix2 k d))
      _ (fun k => argScale m c (ix1 k)) _ (fun k => argWeight m c (ix1 k))
      (tokRow b q) (tokRow b q) k (fun _ => rfl) (fun d => congrFun (V_main_arg1 m c) _)
      (centreNorms_at m c k) (scaleRow_at m c k) (weightRow_at m c k)).trans ?_
  exact sumsAt_eq_rowInfluence _ _ _ _ (tokRows m c) b q k (tokRow b q) (fun d => tokRows_at m c b q d)

/-- THE KERNEL PROGRAM'S RUN: every weakly fair execution ends with the result at the three-sums form of the
    arguments and the arguments unchanged. -/
theorem kernel_run : θ_run defs (onTc (τ := τ) (main (F := Ideal))) ⟨m, fun _ => 0, ρ⟩ (fun r => ∀ c : Dev nD,
      r.2.mem ((c.tc : Thread nD τ).loc main_v8)
        = sumsResult (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (kernel_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Splat

end
-- ==== Proof.RefValue.lean ====
/-
  The reference's result is the norm form, index by index.

  Read one operation at a time: the two broadcasts put token `(b, q)` and centre `k` side by side along the model
  axis, the difference is squared and summed over that axis from the zero word, the root is divided by the floored
  scale of splat `k`, squared, multiplied by `-1/2`, exponentiated, and weighted by `|w k|`.
-/
import proofs.«107572_j38431367364862_1_alg».proof.Proof.Gen.ReferenceIdeal.Read
import proofs.«107572_j38431367364862_1_alg».proof.Proof.Spec

noncomputable section

open scoped BigOperators

namespace Cert.Splat

open Idealize.ShloMosaic Idealize.ShloMosaic.ValueIdx Cert.ReferenceIdeal Cert.ReferenceIdeal.Read

/-- Weight `k` reaches result index `(b, q, k)` through the two broadcasts along the batch and position axes. -/
theorem idx_weight (b : Fin 2) (q : Fin 2048) (k : Fin 64) :
    idx_main_v16 (idx_main_v17 (ix3 b q k)) = ix1 k :=
  funext fun a => Fin.ext (by match a with | ⟨0, _⟩ => rfl)

/-- Scale `k` reaches result index `(b, q, k)` the same way. -/
theorem idx_scale (b : Fin 2) (q : Fin 2048) (k : Fin 64) :
    idx_main_v8 (idx_main_v9 (ix3 b q k)) = ix1 k :=
  funext fun a => Fin.ext (by match a with | ⟨0, _⟩ => rfl)

/-- Term `d` of the sum at `(b, q, k)` reads the token array at `(b, q, d)`. -/
theorem idx_token (b : Fin 2) (q : Fin 2048) (k : Fin 64) (d : Fin 512) :
    idx_main_v0 (idx_main_v2 (idx_main_call0_v1 (ix3 b q k) d)) = ix3 b q d :=
  funext fun a => Fin.ext (by match a with | ⟨0, _⟩ => rfl | ⟨1, _⟩ => rfl | ⟨2, _⟩ => rfl)

/-- Term `d` of the sum at `(b, q, k)` reads the centre array at `(k, d)`. -/
theorem idx_centre (b : Fin 2) (q : Fin 2048) (k : Fin 64) (d : Fin 512) :
    idx_main_v1 (idx_main_v3 (idx_main_call0_v1 (ix3 b q k) d)) = ix2 k d :=
  funext fun a => Fin.ext (by match a with | ⟨0, _⟩ => rfl | ⟨1, _⟩ => rfl)

/-- The reference's last stage is `influences` of its four arguments. -/
theorem reference_eq_influences (x0 : (⟨S2x2048x512, .f32⟩ : BufTy).Contents (Elt Ideal)) (x1 : (⟨S64x512, .f32⟩ : BufTy).Contents (Elt Ideal))
    (x2 x3 : (⟨S64, .f32⟩ : BufTy).Contents (Elt Ideal)) :
    val_main_v18 (F := Ideal) x0 x1 x2 x3 = influences x0 x1 x2 x3 := by
  funext i
  obtain ⟨b, q, k, rfl⟩ : ∃ (b : Fin 2) (q : Fin 2048) (k : Fin 64), i = ix3 b q k := ⟨i 0, i 1, i 2, eq_ix3 i⟩
  show _ = normAt x0 x1 x2 x3 b q k
  unfold normAt
  simp only [val_main_v18_apply, val_main_v14_apply, val_main_v13_apply, val_main_v12_apply, val_main_cst_0_apply,
    val_main_v11_apply, val_main_v10_apply, val_main_v5_apply, val_main_call0_v1_apply, val_main_v9_apply,
    val_main_v8_apply, val_main_v7_apply, val_main_call1_v1_apply, val_main_call1_v0_apply, val_main_cst_apply,
    val_main_v6_apply, val_main_v17_apply, val_main_v16_apply, val_main_v15_apply, val_main_call0_cst_apply,
    val_main_call0_v0_apply, val_main_v4_apply, val_main_v2_apply, val_main_v0_apply, val_main_v3_apply,
    val_main_v1_apply, idx_weight, idx_scale, idx_token, idx_centre]
  -- each remaining operation is, on the extended reals, the operation of the same name by definition
  rfl

end Cert.Splat

end
-- ==== Proof.DistanceLaw.lean ====
/-
  The law that joins the two programs, on the extended reals.

  For real vectors `a`, `b` (a token row and a splat centre), a real scale `s`, a real weight `w` and a positive
  real floor `e`: expanding the square,
    ∑ (a d - b d)² = ∑ a d² - 2 ∑ a d · b d + ∑ b d²,
  and for `S ≥ 0` and `c = max |s| e > 0`, `(√S / c)² = S / c²`. So the exponent written with the three sums over
  `c · c` and the exponent written with the norm divided by `c` and squared are one real number, and the two
  influences agree.
-/
import Idealize.ShloMosaic.PureOps.Ideal

noncomputable section

open scoped BigOperators

namespace Cert.Splat

open Idealize.ShloMosaic

/-- The coercion of a finite real sum is the sum of the coercions. -/
theorem ereal_coe_sum {ι : Type} (t : Finset ι) (f : ι → ℝ) :
    ((∑ d ∈ t, f d : ℝ) : EReal) = ∑ d ∈ t, (f d : EReal) := by
  classical
  induction t using Finset.induction_on with
  | empty => simp
  | insert x t hx ih => rw [Finset.sum_insert hx, Finset.sum_insert hx, EReal.coe_add, ih]

/-- The coercion of a real maximum is the maximum of the coercions. -/
theorem ereal_coe_max (x y : ℝ) : ((max x y : ℝ) : EReal) = max (x : EReal) (y : EReal) :=
  EReal.coe_strictMono.monotone.map_max

/-- `max x (-x) = |x|`, read on the extended reals. -/
theorem ereal_max_neg (x : ℝ) : max (x : EReal) (-(x : EReal)) = ((|x| : ℝ) : EReal) := by
  rw [abs_eq_max_neg, ereal_coe_max, EReal.coe_neg]

/-- The two spellings of one influence value, over real data. Left: the three-sums form, the quotient taken after
    the factor `-1/2`. Right: the norm form, the factor `-1/2` applied after squaring the quotient. -/
theorem influence_eq {n : ℕ} (a b : Fin n → ℝ) (s w e : ℝ) (he : 0 < e) :
    Ideal.exp (Ideal.div
        (((-(1 / 2) : ℝ) : EReal) * (((∑ d, (a d : EReal) * (a d : EReal)) - ((2 : ℝ) : EReal) * (∑ d, (a d : EReal) * (b d : EReal)))
          + ((0 : EReal) + ∑ d, (b d : EReal) * (b d : EReal))))
        (max (max (s : EReal) (-(s : EReal))) (e : EReal) * max (max (s : EReal) (-(s : EReal))) (e : EReal)))
      * max (w : EReal) (-(w : EReal))
    = Ideal.exp (((-(1 / 2) : ℝ) : EReal)
        * (Ideal.div (Ideal.sqrt ((0 : EReal) + ∑ d, ((a d : EReal) - (b d : EReal)) * ((a d : EReal) - (b d : EReal))))
              (max (e : EReal) (max (s : EReal) (-(s : EReal))))
          * Ideal.div (Ideal.sqrt ((0 : EReal) + ∑ d, ((a d : EReal) - (b d : EReal)) * ((a d : EReal) - (b d : EReal))))
              (max (e : EReal) (max (s : EReal) (-(s : EReal))))))
      * max (w : EReal) (-(w : EReal)) := by
  -- the positive scale `c = max |s| e`
  have hcpos : 0 < max |s| e := lt_max_of_lt_right he
  have hcne : max |s| e ≠ 0 := ne_of_gt hcpos
  have hccne : max |s| e * max |s| e ≠ 0 := mul_ne_zero hcne hcne
  have hmax1 : max (max (s : EReal) (-(s : EReal))) (e : EReal) = ((max |s| e : ℝ) : EReal) := by
    rw [ereal_max_neg, ← ereal_coe_max]
  have hmax2 : max (e : EReal) (max (s : EReal) (-(s : EReal))) = ((max |s| e : ℝ) : EReal) := by
    rw [max_comm, hmax1]
  -- the three sums and the sum of squared differences, as coercions of real sums
  have hA : (∑ d, (a d : EReal) * (a d : EReal)) = ((∑ d, a d * a d : ℝ) : EReal) := by
    rw [ereal_coe_sum]; simp only [EReal.coe_mul]
  have hB : (∑ d, (a d : EReal) * (b d : EReal)) = ((∑ d, a d * b d : ℝ) : EReal) := by
    rw [ereal_coe_sum]; simp only [EReal.coe_mul]
  have hC : (∑ d, (b d : EReal) * (b d : EReal)) = ((∑ d, b d * b d : ℝ) : EReal) := by
    rw [ereal_coe_sum]; simp only [EReal.coe_mul]
  have hS : (∑ d, ((a d : EReal) - (b d : EReal)) * ((a d : EReal) - (b d : EReal)))
      = ((∑ d, (a d - b d) * (a d - b d) : ℝ) : EReal) := by
    rw [ereal_coe_sum]; simp only [EReal.coe_mul, EReal.coe_sub]
  -- expanding the square
  have hexp : (∑ d, (a d - b d) * (a d - b d)) = (∑ d, a d * a d) - 2 * (∑ d, a d * b d) + ∑ d, b d * b d := by
    rw [Finset.mul_sum, ← Finset.sum_sub_distrib, ← Finset.sum_add_distrib]
    exact Finset.sum_congr rfl (fun d _ => by ring)
  have hSnn : 0 ≤ ∑ d, (a d - b d) * (a d - b d) :=
    Finset.sum_nonneg (fun d _ => mul_self_nonneg _)
  rw [hmax1, hmax2, hA, hB, hC, hS, zero_add, zero_add, ← EReal.coe_mul (max |s| e) (max |s| e),
    Ideal.div_coe hccne, Ideal.div_coe hcne, Ideal.sqrt_coe, if_neg (not_lt.mpr hSnn)]
  simp only [← EReal.coe_mul, ← EReal.coe_sub, ← EReal.coe_add, Ideal.exp_coe]
  congr 3
  rw [← hexp]
  have hsq := Real.mul_self_sqrt hSnn
  generalize (∑ d, (a d - b d) * (a d - b d)) = S at hsq ⊢
  generalize Real.sqrt S = r at hsq ⊢
  rw [← hsq, one_div, one_div, mul_inv]
  ring

end Cert.Splat

end
-- ==== Proof.Consts.lean ====
/-
  The float literals of the two programs as extended reals.

  `0x40000000` is `2`, `0xBF000000` is `-1/2`, and `0x358637BD` (the floor under the scales, about `1e-6`) is the
  positive dyadic `8796093 · 2⁻⁴³`. Only its sign matters to the proof.
-/
import Idealize.ShloMosaic.PureOps.Ideal.Laws

noncomputable section

namespace Cert.Splat

open Idealize.ShloMosaic

theorem ofBits_two : Ideal.ofBits .f32 0x40000000#32 = ((2 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

theorem ofBits_floor : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

end Cert.Splat

end
-- ==== Proof.Bridge.lean ====
/-
  On real data the three-sums form and the norm form are one value.

  Every entry being a real, the literals being `2`, `-1/2`, `0` and a positive floor, this is the law of
  DistanceLaw.lean at the row of token `(b, q)` and the row of centre `k`.
-/
import proofs.«107572_j38431367364862_1_alg».proof.Proof.Spec
import proofs.«107572_j38431367364862_1_alg».proof.Proof.DistanceLaw
import proofs.«107572_j38431367364862_1_alg».proof.Proof.Consts

noncomputable section

open scoped BigOperators

namespace Cert.Splat

open Idealize.ShloMosaic Idealize.ShloMosaic.ValueIdx

theorem sumsAt_eq_normAt (x : STok.Idx → EReal) (p : SCen.Idx → EReal) (s w : SSpl.Idx → EReal)
    (hx : ∀ i, ∃ r : ℝ, x i = (r : EReal)) (hp : ∀ i, ∃ r : ℝ, p i = (r : EReal))
    (hs : ∀ i, ∃ r : ℝ, s i = (r : EReal)) (hw : ∀ i, ∃ r : ℝ, w i = (r : EReal))
    (b : Fin 2) (q : Fin 2048) (k : Fin 64) :
    sumsAt x p s w b q k = normAt x p s w b q k := by
  choose xr hxr using hx
  choose pr hpr using hp
  choose sr hsr using hs
  choose wr hwr using hw
  obtain ⟨e, he, hee⟩ := ofBits_floor
  unfold sumsAt normAt
  simp only [eps, negHalf, two, zero, hxr, hpr, hsr, hwr, ofBits_two, ofBits_neg_half, hee, Ideal.ofBits_zero_f32]
  exact influence_eq (fun d => xr (ix3 b q d)) (fun d => pr (ix2 k d)) (sr (ix1 k)) (wr (ix1 k)) e he

end Cert.Splat

end
-- ==== Proof.FiniteInputs.lean ====
/-
  What the precondition says of the data: every entry of the four argument arrays is a real number.

  The precondition is the conjunction of four `all (|x| < +∞)` tests, one per array. Each conjunct being 1 makes every
  comparison of that array 1; `|x| = max x (-x)` is below `+∞` only when `x` is neither infinity.
-/
import proofs.«107572_j38431367364862_1_alg».proof.Proof.Gen.Pre_finite_inputs
import Idealize.ShloMosaic.Lib.ReduceAll
import Idealize.ShloMosaic.Lib.ValueIdx
import Idealize.ShloMosaic.PureOps.Ideal.Laws

noncomputable section

namespace Cert.Splat

open Idealize.ShloMosaic

/-- The word `0x7F800000` denotes `+∞`. -/
theorem ofBits_pos_inf : Ideal.ofBits .f32 0x7F800000#32 = (⊤ : EReal) := by
  simp [Ideal.ofBits, Ideal.ieee]

/-- `|x| = max x (-x)` compares below `+∞` only when `x` is neither infinity, that is a real. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The scalar shape has one index. -/
instance subsingleton_S_Idx : Subsingleton Cert.Pre_finite_inputs.S_.Idx :=
  ⟨fun a b => funext fun d => d.elim0⟩

/-- The all-test `all (|x| < +∞)` of an array of any shape being 1 makes every entry of the array a real. -/
theorem real_of_all_abs_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x)
          (broadcastInDim s ![] hb (constant Cert.Pre_finite_inputs.S_ .f32 0x7F800000#32)))
        (constantI Cert.Pre_finite_inputs.S_ 1 1#1) hr hu ValueIdx.ix0 = 1#1) :
    ∀ i, ∃ r : ℝ, x i = (r : EReal) := by
  intro i
  have hi := Host.reduce_andi_all _ _ hr hu ValueIdx.ix0 e i
  apply real_of_abs_lt_top
  rw [← ofBits_pos_inf]
  exact hi

/-- Under the precondition every entry of every argument array is (the coercion of) a real number. -/
theorem real_of_finite_inputs
    (x0 : FVec Ideal Cert.Pre_finite_inputs.S2x2048x512 .f32) (x1 : FVec Ideal Cert.Pre_finite_inputs.S64x512 .f32)
    (x2 x3 : FVec Ideal Cert.Pre_finite_inputs.S64 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨real_of_all_abs_lt_inf x0 _ _ _ h0', real_of_all_abs_lt_inf x1 _ _ _ h1,
    real_of_all_abs_lt_inf x2 _ _ _ h2, real_of_all_abs_lt_inf x3 _ _ _ h3⟩

end Cert.Splat

end
-- ==== Proof.lean ====
/-
  The certificate: a splat-influence kernel against its reference, over the extended reals.

  Both programs compute, for token `(b, q)` and splat `k`,
      exp (-1/2 · ‖x[b,q,·] - p[k,·]‖² / c²) · |w[k]|,    c = max |s[k]| ε,
  with one and the same floor `ε` and factor `-1/2`. The reference forms the differences, takes the norm, divides
  by `c` and squares. The kernel expands the square: the row's squared norm, minus twice a matrix product of token
  rows against centre rows (in a narrower float format, the identity here), plus the centre's squared norm computed
  before the call; it divides by `c · c`. On finite data the two exponents are one real number (DistanceLaw.lean);
  the precondition makes the data finite (FiniteInputs.lean).

  The kernel program's run is read off its frame: what each of the four grid points writes back is a block of rows of
  one function of the arrays (KernelBlock.lean, KernelArray.lean), and the layout steps around the call turn it into
  the three-sums form of the arguments (KernelHost.lean). The reference's run is read one operation at a time
  (RefValue.lean). The three frames are the two kernel programs' frames and the reference's run with its result
  dropped; the idealization rewrote nothing, so `preserves` is trivial.
-/
import proofs.«107572_j38431367364862_1_alg».proof.Defs
import proofs.«107572_j38431367364862_1_alg».proof.Proof.Gen.Kernel
import proofs.«107572_j38431367364862_1_alg».proof.Proof.Gen.Kernel.Skeleton
import proofs.«107572_j38431367364862_1_alg».proof.Proof.Gen.Kernel.Launch
import proofs.«107572_j38431367364862_1_alg».proof.Proof.Gen.Kernel.Points
import proofs.«107572_j38431367364862_1_alg».proof.Proof.Gen.Kernel.Frame
import proofs.«107572_j38431367364862_1_alg».proof.Proof.Gen.KernelIdeal
import proofs.«107572_j38431367364862_1_alg».proof.Proof.Gen.KernelIdeal.Skeleton
import proofs.«107572_j38431367364862_1_alg».proof.Proof.Gen.KernelIdeal.Launch
import proofs.«107572_j38431367364862_1_alg».proof.Proof.Gen.KernelIdeal.Points
import proofs.«107572_j38431367364862_1_alg».proof.Proof.Gen.KernelIdeal.Frame
import proofs.«107572_j38431367364862_1_alg».proof.Proof.Gen.ReferenceIdeal
import proofs.«107572_j38431367364862_1_alg».proof.Proof.Gen.Pre_finite_inputs
import proofs.«107572_j38431367364862_1_alg».proof.Proof.Gen.ReferenceIdeal.Run
import proofs.«107572_j38431367364862_1_alg».proof.Proof.Gen.ReferenceIdeal.Read
import proofs.«107572_j38431367364862_1_alg».proof.Proof.KernelHost
import proofs.«107572_j38431367364862_1_alg».proof.Proof.RefValue
import proofs.«107572_j38431367364862_1_alg».proof.Proof.Bridge
import proofs.«107572_j38431367364862_1_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the norm form of the (agreeing) arguments: the kernel program at the three-sums form, which on
    the finite data the precondition gives is the norm form; the reference at the norm form as it is. -/
theorem algebraic : Cert.algebraic_KernelIdeal_ReferenceIdeal := by
  intro m ρ m' ρ' hpre hagree
  refine ⟨fun c => Cert.Splat.influences
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.Splat.kernel_run m ρ)
    obtain ⟨hx, hp, hs, hw⟩ := Cert.Splat.real_of_finite_inputs _ _ _ _ (hpre c)
    funext i
    exact Cert.Splat.sumsAt_eq_normAt _ _ _ _ hx hp hs hw (i 0) (i 1) (i 2)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v18_eq _ _ _ _).trans (Cert.Splat.reference_eq_influences _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
